-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S10000x128 : Shape := ⟨2, ![10000, 128]⟩
abbrev S1x1 : Shape := ⟨2, ![1, 1]⟩
abbrev S100000x1 : Shape := ⟨2, ![100000, 1]⟩
abbrev S10000x1 : Shape := ⟨2, ![10000, 1]⟩
abbrev S10000 : Shape := ⟨1, ![10000]⟩

abbrev nBuf : Space → Nat
  | .hbm => 90
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S1x128, .f32⟩
  | .hbm, ⟨87, _⟩ => ⟨S1x1, .f32⟩
  | .hbm, ⟨88, _⟩ => ⟨S100000x1, .f32⟩
  | .hbm, ⟨89, _⟩ => ⟨S100000, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x1_S1x128 : S128x1.ShapeCasts S1x128
  shapeCasts_S1_S1x1 : S1.ShapeCasts S1x1
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x1, .f32⟩
  | .hbm, ⟨92, _⟩ => ⟨S1x1, .f32⟩
  | .hbm, ⟨93, _⟩ => ⟨S100000x1, .f32⟩
  | .hbm, ⟨94, _⟩ => ⟨S100000x1, .f32⟩
  | .hbm, ⟨95, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RefIndex.lean ====
/- The reference's stages read index by index, as functions on the extended reals: a product of matrices as the sum over the
   contracted index, a bias row broadcast down the rows as the row's entry at the column, the rectifier as the maximum with
   zero, the closing reshape of a one-column array as the column's entry. Each stage is stated over the stage below it, so
   the aggregation stages between them (gathers and scatter-adds, shared word for word with the kernel's host stretches)
   stay closed. -/
import proofs.«174593_j5085241279102_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefIndex

open Idealize.ShloMosaic Idealize.ShloMosaic.TcCoe Idealize.SL.Sem
open Idealize.ShloMosaic.ValueIdx
open Cert.ReferenceIdeal Cert.ReferenceIdeal.ReadP

variable (x0 : S100000x256.Idx → EReal) (x1 : (⟨S2x1600000, .i32⟩ : BufTy).Contents (Elt Ideal)) (x2 : S256x128.Idx → EReal)
  (x3 : S128.Idx → EReal) (x4 : S128x128.Idx → EReal) (x5 : S128.Idx → EReal) (x6 : S128x1.Idx → EReal) (x7 : S1.Idx → EReal)

/-- The first feature product: entry (r, j) is the sum over k of x[r, k] * W1[k, j]. -/
theorem product30 :
    val_main_v30 (F := Ideal) x0 x2 = fun (i : S100000x128.Idx) => ∑ k : Fin 256, x0 (ix2 (i 0) k) * x2 (ix2 k (i 1)) := by
  funext i
  rw [val_main_v30_apply]
  refine Finset.sum_congr rfl fun k _ => ?_
  have el : lidx_main_v30 i k = ix2 (i 0) k := funext fun a => Fin.ext (by
    match a with
    | ⟨0, _⟩ => rfl
    | ⟨1, _⟩ => rfl)
  have er : ridx_main_v30 i k = ix2 k (i 1) := funext fun a => Fin.ext (by
    match a with
    | ⟨0, _⟩ => rfl
    | ⟨1, _⟩ => rfl)
  rw [el, er]; rfl

/-- The first layer's output: entry (r, j) is max(agg1[r, j] + b1[j], 0). -/
theorem rectified47 :
    val_main_v47 (F := Ideal) x0 x1 x2 x3
      = fun (i : S100000x128.Idx) => max (val_main_v43 (F := Ideal) x0 x1 x2 i + x3 (ix1 (i 1))) 0 := by
  funext i
  rw [val_main_v47_apply, val_main_v46_apply, val_main_v45_apply, val_main_v44_apply, val_main_call1_v0_apply,
    val_main_call1_cst_apply, Ideal.maximumf_def, Ideal.addf_def, Ideal.ofBits_def, Ideal.ofBits_zero_f32]
  have e : idx_main_v44 (idx_main_v45 i) = ix1 (i 1) := funext fun a => Fin.ext (by
    match a with
    | ⟨0, _⟩ => rfl)
  rw [e]; rfl

/-- The second feature product: entry (r, j) is the sum over k of h[r, k] * W2[k, j]. -/
theorem product48 :
    val_main_v48 (F := Ideal) x0 x1 x2 x3 x4
      = fun (i : S100000x128.Idx) => ∑ k : Fin 128, val_main_v47 (F := Ideal) x0 x1 x2 x3 (ix2 (i 0) k) * x4 (ix2 k (i 1)) := by
  funext i
  rw [val_main_v48_apply]
  refine Finset.sum_congr rfl fun k _ => ?_
  have el : lidx_main_v48 i k = ix2 (i 0) k := funext fun a => Fin.ext (by
    match a with
    | ⟨0, _⟩ => rfl
    | ⟨1, _⟩ => rfl)
  have er : ridx_main_v48 i k = ix2 k (i 1) := funext fun a => Fin.ext (by
    match a with
    | ⟨0, _⟩ => rfl
    | ⟨1, _⟩ => rfl)
  rw [el, er]; rfl

/-- The second layer's output: entry (r, j) is agg2[r, j] + b2[j]. -/
theorem biased64 :
    val_main_v64 (F := Ideal) x0 x1 x2 x3 x4 x5
      = fun (i : S100000x128.Idx) => val_main_v61 (F := Ideal) x0 x1 x2 x3 x4 i + x5 (ix1 (i 1)) := by
  funext i
  rw [val_main_v64_apply, val_main_v63_apply, val_main_v62_apply, Ideal.addf_def]
  have e : idx_main_v62 (idx_main_v63 i) = ix1 (i 1) := funext fun a => Fin.ext (by
    match a with
    | ⟨0, _⟩ => rfl)
  rw [e]; rfl

/-- The closing linear layer: entry (r, 0) is the sum over k of h2[r, k] * Wf[k, 0], plus bf[0]. -/
theorem linear68 :
    val_main_v68 (F := Ideal) x0 x1 x2 x3 x4 x5 x6 x7
      = fun (i : S100000x1.Idx) =>
          (∑ k : Fin 128, val_main_v64 (F := Ideal) x0 x1 x2 x3 x4 x5 (ix2 (i 0) k) * x6 (ix2 k 0)) + x7 (ix1 0) := by
  funext i
  rw [val_main_v68_apply, val_main_v65_apply, val_main_v67_apply, val_main_v66_apply, Ideal.addf_def]
  have e7 : idx_main_v66 (idx_main_v67 i) = ix1 0 := funext fun a => Fin.ext (by
    match a with
    | ⟨0, _⟩ => rfl)
  rw [e7]
  refine congrArg (fun s => s + x7 (ix1 0)) (Finset.sum_congr rfl fun k _ => ?_)
  have el : lidx_main_v65 i k = ix2 (i 0) k := funext fun a => Fin.ext (by
    match a with
    | ⟨0, _⟩ => rfl
    | ⟨1, _⟩ => rfl)
  have er : ridx_main_v65 i k = ix2 k 0 := funext fun a => Fin.ext (by
    match a with
    | ⟨0, _⟩ => rfl
    | ⟨1, _⟩ => exact Nat.lt_one_iff.mp (i 1).isLt)
  rw [el, er]; rfl

/-- The result: the one column of the closing layer's output, row by row. -/
theorem flat69 :
    val_main_v69 (F := Ideal) x0 x1 x2 x3 x4 x5 x6 x7
      = fun (i : S100000.Idx) => val_main_v68 (F := Ideal) x0 x1 x2 x3 x4 x5 x6 x7 (ix2 (i 0) 0) := by
  funext i
  rw [val_main_v69_apply]
  have e : idx_main_v69 i = ix2 (i 0) 0 := funext fun a => Fin.ext (by
    match a with
    | ⟨0, _⟩ => exact Nat.div_one _
    | ⟨1, _⟩ => rfl)
  rw [e]; rfl

end Cert.ReferenceIdeal.RefIndex

end
-- ==== Proof.HostStretch.lean ====
/- The kernel's host stretches between its regions, read back at the buffers a later region or stretch takes: the stretches are
   the reference's own operations word for word (the edge lists with self loops, the degree normalisation, the gather of source
   rows, the scaling by the edge norm, the scatter-add into destination rows), so each buffer a stretch writes holds the
   reference's stage of the same operands, whatever the float instance; the reshapes of the bias and weight rows are read at
   an index. Every fact is stated for an arbitrary valuation at the stretch's entry, the operands' contents as hypotheses. -/
import proofs.«174593_j5085241279102_1_alg».proof.Proof.Gen.KernelIdeal.Frame
import proofs.«174593_j5085241279102_1_alg».proof.Proof.RefRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostStretch

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (W : Valuation τ sig (Elt F))

/-- A buffer read back after a stretch: one pass over the operations' results, then the same results rewritten where the pass
    does not go (the operands inside a concatenate's list of pieces). -/
local macro "read_back" : tactic => `(tactic| (
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))))

/-! ## Before the first region: the edge lists with self loops and the edge norm -/

/-- The source list: the first row of the edge index followed by every node once. -/
theorem pre_v3 :
    after hostOps0_2 (after hostOps0_1 (after hostOps0 W)) (Proc.devRef .tc main_v3)
      = Cert.ReferenceIdeal.ReadP.val_main_v3 (F := F) (W (Proc.devRef .tc main_arg1)) := by
  read_back
  rfl

/-- The destination list: the second row of the edge index followed by every node once. -/
theorem pre_v6 :
    after hostOps0_2 (after hostOps0_1 (after hostOps0 W)) (Proc.devRef .tc main_v6)
      = Cert.ReferenceIdeal.ReadP.val_main_v6 (F := F) (W (Proc.devRef .tc main_arg1)) := by
  read_back
  rfl

/-- The edge norm: the product of the inverse square-root degrees of an edge's two ends. -/
theorem pre_v29 :
    after hostOps0_2 (after hostOps0_1 (after hostOps0 W)) (Proc.devRef .tc main_v29)
      = Cert.ReferenceIdeal.ReadP.val_main_v29 (F := F) (W (Proc.devRef .tc main_arg1)) := by
  read_back
  rfl

/-! ## After a feature product: gather the source rows, scale by the edge norm, add into the destination rows -/

/-- The first aggregation. -/
theorem mid1_v43 (x0 : (⟨Cert.ReferenceIdeal.S100000x256, .f32⟩ : BufTy).Contents (Elt F))
    (x1 : (⟨Cert.ReferenceIdeal.S2x1600000, .i32⟩ : BufTy).Contents (Elt F))
    (x2 : (⟨Cert.ReferenceIdeal.S256x128, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h29 : W (Proc.devRef .tc main_v29) = Cert.ReferenceIdeal.ReadP.val_main_v29 (F := F) x1)
    (h30 : W (Proc.devRef .tc main_v30) = Cert.ReferenceIdeal.ReadP.val_main_v30 (F := F) x0 x2) :
    after hostOps1 W (Proc.devRef .tc main_v43) = Cert.ReferenceIdeal.ReadP.val_main_v43 (F := F) x0 x1 x2 := by
  after_results_simp
  rw [h3, h6, h29, h30]
  rfl

/-- The first bias as a row: entry (0, j) is b1[j]. -/
theorem mid1_v44 (j : Fin 128) :
    (after hostOps1 W (Proc.devRef .tc main_v44) : S1x128.Idx → Elt F .f32) (ix2 0 j)
      = (W (Proc.devRef .tc main_arg3) : S128.Idx → Elt F .f32) (ix1 j) := by
  rw [show after hostOps1 W (Proc.devRef .tc main_v44)
      = shapeCast S1x128 (W (Proc.devRef .tc main_arg3) : S128.Idx → Elt F .f32) shapeCasts_S128_S1x128 from by after_results_simp <;> rfl]
  exact shapeCast_apply _ shapeCasts_S128_S1x128 (ix2 0 j) (ix1 j)
    (by rewrite [Shape.rowMajor_val_two, Shape.rowMajor_val_one]; show j.val = 0 * 128 + j.val; omega)

/-- The second aggregation. -/
theorem mid3_v59 (x0 : (⟨Cert.ReferenceIdeal.S100000x256, .f32⟩ : BufTy).Contents (Elt F))
    (x1 : (⟨Cert.ReferenceIdeal.S2x1600000, .i32⟩ : BufTy).Contents (Elt F))
    (x2 : (⟨Cert.ReferenceIdeal.S256x128, .f32⟩ : BufTy).Contents (Elt F))
    (x3 : (⟨Cert.ReferenceIdeal.S128, .f32⟩ : BufTy).Contents (Elt F))
    (x4 : (⟨Cert.ReferenceIdeal.S128x128, .f32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h29 : W (Proc.devRef .tc main_v29) = Cert.ReferenceIdeal.ReadP.val_main_v29 (F := F) x1)
    (h46 : W (Proc.devRef .tc main_v46) = Cert.ReferenceIdeal.ReadP.val_main_v48 (F := F) x0 x1 x2 x3 x4) :
    after hostOps3 W (Proc.devRef .tc main_v59) = Cert.ReferenceIdeal.ReadP.val_main_v61 (F := F) x0 x1 x2 x3 x4 := by
  after_results_simp
  rw [h3, h6, h29, h46]
  rfl

/-- The second bias as a row: entry (0, j) is b2[j]. -/
theorem mid3_v60 (j : Fin 128) :
    (after hostOps3 W (Proc.devRef .tc main_v60) : S1x128.Idx → Elt F .f32) (ix2 0 j)
      = (W (Proc.devRef .tc main_arg5) : S128.Idx → Elt F .f32) (ix1 j) := by
  rw [show after hostOps3 W (Proc.devRef .tc main_v60)
      = shapeCast S1x128 (W (Proc.devRef .tc main_arg5) : S128.Idx → Elt F .f32) shapeCasts_S128_S1x128 from by after_results_simp <;> rfl]
  exact shapeCast_apply _ shapeCasts_S128_S1x128 (ix2 0 j) (ix1 j)
    (by rewrite [Shape.rowMajor_val_two, Shape.rowMajor_val_one]; show j.val = 0 * 128 + j.val; omega)

/-! ## Before the closing region: the weight column as a row, the bias as a one-by-one array -/

/-- The weight column as a row: entry (0, k) is Wf[k, 0]. -/
theorem mid4_v62 (k : Fin 128) :
    (after hostOps4 W (Proc.devRef .tc main_v62) : S1x128.Idx → Elt F .f32) (ix2 0 k)
      = (W (Proc.devRef .tc main_arg6) : S128x1.Idx → Elt F .f32) (ix2 k 0) := by
  rw [show after hostOps4 W (Proc.devRef .tc main_v62)
      = shapeCast S1x128 (W (Proc.devRef .tc main_arg6) : S128x1.Idx → Elt F .f32) shapeCasts_S128x1_S1x128 from by after_results_simp <;> rfl]
  exact shapeCast_apply _ shapeCasts_S128x1_S1x128 (ix2 0 k) (ix2 k 0)
    (by rewrite [Shape.rowMajor_val_two, Shape.rowMajor_val_two]; show k.val * 1 + 0 = 0 * 128 + k.val; omega)

/-- The closing bias as a one-by-one array: its entry is bf[0]. -/
theorem mid4_v63 :
    (after hostOps4 W (Proc.devRef .tc main_v63) : S1x1.Idx → Elt F .f32) (ix2 0 0)
      = (W (Proc.devRef .tc main_arg7) : S1.Idx → Elt F .f32) (ix1 0) := by
  rw [show after hostOps4 W (Proc.devRef .tc main_v63)
      = shapeCast S1x1 (W (Proc.devRef .tc main_arg7) : S1.Idx → Elt F .f32) shapeCasts_S1_S1x1 from by after_results_simp <;> rfl]
  exact shapeCast_apply _ shapeCasts_S1_S1x1 (ix2 0 0) (ix1 0)
    (by rewrite [Shape.rowMajor_val_two, Shape.rowMajor_val_one]; rfl)

/-! ## After the closing region: the one column flattened -/

/-- The result: entry r is the closing region's entry (r, 0). -/
theorem post_v65 (i : S100000.Idx) :
    (after hostOps5 W (Proc.devRef .tc main_v65) : S100000.Idx → Elt F .f32) i
      = (W (Proc.devRef .tc main_v64) : S100000x1.Idx → Elt F .f32) (ix2 (i 0) 0) := by
  rw [show after hostOps5 W (Proc.devRef .tc main_v65)
      = shapeCast S100000 (W (Proc.devRef .tc main_v64) : S100000x1.Idx → Elt F .f32) shapeCasts_S100000x1_S100000 from by after_results_simp <;> rfl]
  exact shapeCast_apply _ shapeCasts_S100000x1_S100000 i (ix2 (i 0) 0)
    (by rewrite [Shape.rowMajor_val_two, Shape.rowMajor_val_one]; show (i 0).val * 1 + 0 = (i 0).val; omega)

end Cert.KernelIdeal.HostStretch

end
-- ==== Proof.Region0.lean ====
/- The first feature product: after region 0 its output array holds, at row r and column j, the sum over k of x[r,k] * W1[k,j] (the bf16 casts are the identity on extended reals, and the product accumulates into a zero accumulator).
   Stated at any contents `V` of the core's buffers at the region's entry, so that the run can instantiate it at its own
   boundary contents. -/
import proofs.«174593_j5085241279102_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

abbrev x0 (c : Dev nD) : S100000x256.Idx → EReal := V c main_arg0
abbrev w0 (c : Dev nD) : S256x128.Idx → EReal := V c main_arg2
abbrev o0 (c : Dev nD) : S100000x128.Idx → EReal := (dat0 (F := Ideal) V c).arrAt 2 cfg0.N

/-! ## The block product at an index -/

/-- On the left operand of the block product the row axis is free: it carries the output's row. -/
theorem matmul0_lhs_row (j : S4000x128.Idx) (q : dot_S4000x256_S256x128_S4000x128_1_0_0_1_n_n.contr.Idx) :
    (dot_S4000x256_S256x128_S4000x128_1_0_0_1_n_n.lhsIdx j q 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- Its column axis is the contracted one: it carries the summation index. -/
theorem matmul0_lhs_col (j : S4000x128.Idx) (q : dot_S4000x256_S256x128_S4000x128_1_0_0_1_n_n.contr.Idx) :
    (dot_S4000x256_S256x128_S4000x128_1_0_0_1_n_n.lhsIdx j q 1).val = (q ⟨0, by decide⟩).val :=
  dot_S4000x256_S256x128_S4000x128_1_0_0_1_n_n.lhsIdx_val_of_single rfl j q
/-- On the right operand the row axis is the contracted one. -/
theorem matmul0_rhs_row (j : S4000x128.Idx) (q : dot_S4000x256_S256x128_S4000x128_1_0_0_1_n_n.contr.Idx) :
    (dot_S4000x256_S256x128_S4000x128_1_0_0_1_n_n.rhsIdx j q 0).val = (q ⟨0, by decide⟩).val :=
  dot_S4000x256_S256x128_S4000x128_1_0_0_1_n_n.rhsIdx_val_of_single rfl j q
/-- Its column axis is free: it carries the output's column. -/
theorem matmul0_rhs_col (j : S4000x128.Idx) (q : dot_S4000x256_S256x128_S4000x128_1_0_0_1_n_n.contr.Idx) :
    (dot_S4000x256_S256x128_S4000x128_1_0_0_1_n_n.rhsIdx j q 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The block product at row p and column q: the sum over k of xb[p,k] * wb[k,q]. The narrowing casts are the identity
    on extended reals, and the accumulator is the zero splat, so only the sum is left; the contraction index set is
    re-indexed by its one coordinate. -/
theorem matmul0_block_apply (xb : Vec Ideal S4000x256 .f32) (wb : Vec Ideal S256x128 .f32) (p : Fin 4000) (q : Fin 128) :
    k0_pay1 (F := Ideal) xb wb (ix2 p q) = ∑ k : Fin 256, (xb (ix2 p k) : EReal) * (wb (ix2 k q) : EReal) := by
  unfold k0_pay1
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact matmul0_lhs_row _ _
    | ⟨1, _⟩ => exact (matmul0_lhs_col _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (matmul0_rhs_row _ _).trans hk
    | ⟨1, _⟩ => exact matmul0_rhs_col _ _)
  rw [el, er]
  rfl

/-! ## From the blocks to the array -/

theorem matmul0_origin : (![0, 0] : Fin 2 → Nat) = fun _ => 0 := funext fun a => by fin_cases a <;> rfl

/-- The whole-array product: at row r and column j the sum over k of x[r,k] * w[k,j]. -/
abbrev matmul0_product (x : S100000x256.Idx → EReal) (w : S256x128.Idx → EReal) : S100000x128.Idx → EReal :=
  fun i => ∑ k : Fin 256, x (ix2 (i 0) k) * w (ix2 k (i 1))

/-- The index maps over the grid: point t takes row block t of the left operand and of the output, and the whole of the
    right operand. -/
theorem matmul0_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product whose left block holds rows of x, at the place of output row (i 0), and whose right block holds w, is
    the whole-array product at i. -/
theorem matmul0_block_rows (xb : Vec Ideal S4000x256 .f32) (wb : Vec Ideal S256x128 .f32)
    (x : S100000x256.Idx → EReal) (w : S256x128.Idx → EReal) (j : S4000x128.Idx) (i : S100000x128.Idx)
    (hx : ∀ k : Fin 256, (xb (ix2 (j 0) k) : EReal) = x (ix2 (i 0) k))
    (hw : ∀ k : Fin 256, (wb (ix2 k (j 1)) : EReal) = w (ix2 k (i 1))) :
    k0_pay1 (F := Ideal) xb wb j = matmul0_product x w i := by
  refine (congrArg (k0_pay1 (F := Ideal) xb wb) (eq_ix2 j)).trans ((matmul0_block_apply xb wb (j 0) (j 1)).trans ?_)
  exact Finset.sum_congr rfl fun k _ => congrArg₂ (· * ·) (hx k) (hw k)

/-- What point t writes back is block t of the whole-array product of the arrays as the region finds them. -/
theorem matmul0_flushed_eq (c : Dev nD) (t : Fin cfg0.N) :
    (dat0 (F := Ideal) V c).flushed 2 t = ((cfg0.win 2).blk t).view.read (Elt Ideal) (matmul0_product (x0 V c) (w0 V c)) := by
  show (cfg0.win 2).cut (grid0.coords t) ((dat0 (F := Ideal) V c).after 2 t) = _
  rw [after0_2]
  unfold out0_2
  rw [View.canon_unit_zero matmul0_origin]
  simp only [View.ld_unit_zero (S := S4000x256) matmul0_origin, View.ld_unit_zero (S := S256x128) matmul0_origin]
  funext j
  obtain ⟨e00, e01, e10, e11, e20, e21⟩ := matmul0_block_indices t
  show k0_pay1 (F := Ideal) (iblk0 V c 0 t) (iblk0 V c 1 t) j = matmul0_product (x0 V c) (w0 V c) (((cfg0.win 2).blk t).view.emb j)
  refine matmul0_block_rows (iblk0 V c 0 t) (iblk0 V c 1 t) (x0 V c) (w0 V c) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    congr 1; funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  · show V c main_arg2 (((cfg0.win 1).blk t).view.emb (ix2 k (j 1))) = V c main_arg2 (ix2 k ((((cfg0.win 2).blk t).view.emb j) 1))
    congr 1; funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output lies in point t's block exactly when each coordinate lies in the block's range on its axis. -/
theorem matmul0_mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- The 25 blocks of 4000 rows cover the 100000 rows: row r lies in block r / 4000. -/
theorem matmul0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨e00, e01, e10, e11, e20, e21⟩ := matmul0_block_indices t
  refine ⟨t, flush0_2 t, ?_⟩
  rw [matmul0_mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

theorem matmul0 (c : Dev nD) :
    o0 V c = fun i => ∑ k : Fin 256, x0 V c (ix2 (i 0) k) * w0 V c (ix2 k (i 1)) := by
  exact (dat0 (F := Ideal) V c).arrAt_eq_of_cover 2 (matmul0_product (x0 V c) (w0 V c)) (fun t _ => matmul0_flushed_eq V c t) matmul0_cover

end Cert.KernelIdeal.RegionValue
end
-- ==== Proof.Region1.lean ====
/- The first bias and rectifier: after region 1 its output array holds max(agg[r,j] + b[0,j], 0).
   Stated at any contents `V` of the core's buffers at the region's entry, so that the run can instantiate it at its own
   boundary contents. -/
import proofs.«174593_j5085241279102_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

abbrev x1 (c : Dev nD) : S100000x128.Idx → EReal := V c main_v43
abbrev b1 (c : Dev nD) : S1x128.Idx → EReal := V c main_v44
abbrev o1 (c : Dev nD) : S100000x128.Idx → EReal := (dat1 (F := Ideal) V c).arrAt 2 cfg1.N

/-- The rectified biased array as one function of the whole arrays: entry (r, j) is max(X[r, j] + B[0, j], 0). -/
abbrev reluArr1 (X : S100000x128.Idx → EReal) (B : S1x128.Idx → EReal) : S100000x128.Idx → EReal :=
  fun i => max (X i + B (ix2 0 (i 1))) 0

/-- The offset (0, 0) is the zero offset. -/
theorem hz1 : (![0, 0] : Fin 2 → Nat) = fun _ => 0 := funext fun a => by fin_cases a <;> rfl

/-- The body's arithmetic at entry (p, q) of a block, over the extended reals: the casts to the same shape are the
    identity, the broadcast reads the bias row at column q, the zero word is the real 0; so the entry is
    max(x[p, q] + b[0, q], 0). -/
theorem pay1_apply (x : Vec Ideal S10000x128 .f32) (b : Vec Ideal S1x128 .f32) (p : Fin 10000) (q : Fin 128) :
    k1_pay1 (F := Ideal) x b (ix2 p q) = max (x (ix2 p q) + b (ix2 (0 : Fin 1) q)) 0 := by
  unfold k1_pay1
  show max (shapeCast S10000x128 x shapeCasts_S10000x128_S10000x128 (ix2 p q)
      + broadcastTo S10000x128 (shapeCast S1x128 b shapeCasts_S1x128_S1x128) broadcasts_S1x128_S10000x128 (ix2 p q))
      (Ideal.ofBits .f32 0x00000000#32) = _
  rw [shapeCast_self, shapeCast_self, Ideal.ofBits_zero_f32]
  exact congrArg (fun z => max (x (ix2 p q) + z) 0) (broadcastTo_1b_ab_apply b broadcasts_S1x128_S10000x128 p q)

/-- The same for a whole block: when the block `x` is the array `X` read through a placement `e` of the block's
    indices that keeps the column, and the bias block `b` is the bias row `B`, the body's result on the block is the
    rectified biased array read through `e`. -/
theorem pay1_blk (X : S100000x128.Idx → EReal) (B : S1x128.Idx → EReal)
    (x : Vec Ideal S10000x128 .f32) (b : Vec Ideal S1x128 .f32) (e : S10000x128.Idx → S100000x128.Idx)
    (hx : ∀ j, x j = X (e j)) (hb : ∀ k, b k = B k) (he : ∀ j, ((e j) 1).val = (j 1).val) :
    k1_pay1 (F := Ideal) x b = fun j => max (X (e j) + B (ix2 0 ((e j) 1))) 0 := by
  funext j
  obtain ⟨p, q, rfl⟩ : ∃ (p : Fin 10000) (q : Fin 128), j = ix2 p q := ⟨j 0, j 1, eq_ix2 j⟩
  rw [pay1_apply, hx, hb]
  have hq : (ix2 (0 : Fin 1) q : S1x128.Idx) = ix2 0 ((e (ix2 p q)) 1) := by
    funext a
    match a with
    | ⟨0, _⟩ => rfl
    | ⟨1, _⟩ => exact Fin.ext (he (ix2 p q)).symm
  exact congrArg (fun z => max (X (e (ix2 p q)) + B z) 0) hq

/-- The three index maps over the ten grid points: the input's and the output's block row is the point's number and
    their block column 0; the bias row's block is (0, 0) at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rectified biased array: the output's one store covers its whole
    buffer with the body's result on the input blocks; the input block at `t` sits in its array where the output block
    at `t` sits in its own (same block row and column: a block's coordinate is index × size + the coordinate inside the
    block), and the bias block is the whole bias row. -/
theorem flushed1_eq (c : Dev nD) (t : Fin cfg1.N) :
    (dat1 (F := Ideal) V c).flushed 2 t
      = ((cfg1.win 2).blk t).view.read (Elt Ideal) (reluArr1 (x1 V c) (b1 V c)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S1x128) hz1]
  obtain ⟨e00, e01, e10, e11, e20, e21⟩ := idx1 t
  have hx : ∀ j : S10000x128.Idx, iblk1 V c 0 t j = x1 V c (((cfg1.win 2).blk t).view.emb j) := by
    intro j
    show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have hb : ∀ k : S1x128.Idx, iblk1 V c 1 t k = b1 V c k := by
    intro k
    show V c main_v44 (((cfg1.win 1).blk t).view.emb k) = V c main_v44 k
    refine congrArg (V c main_v44) (funext fun a => Fin.ext ?_)
    match a with
    | ⟨0, _⟩ => show win1_1.index t (0 : Fin 2) * 1 + 1 * (k 0).val = (k 0).val; omega
    | ⟨1, _⟩ => show win1_1.index t (1 : Fin 2) * 128 + 1 * (k 1).val = (k 1).val; omega
  have he : ∀ j : S10000x128.Idx, ((((cfg1.win 2).blk t).view.emb j) 1).val = (j 1).val := by
    intro j
    show win1_2.index t (1 : Fin 2) * 128 + 1 * (j 1).val = (j 1).val
    omega
  funext j
  show k1_pay1 (F := Ideal) (iblk1 V c 0 t) (iblk1 V c 1 t) j
      = max (x1 V c (((cfg1.win 2).blk t).view.emb j) + b1 V c (ix2 0 ((((cfg1.win 2).blk t).view.emb j) 1))) 0
  exact congrFun (pay1_blk (x1 V c) (b1 V c) (iblk1 V c 0 t) (iblk1 V c 1 t)
    (fun j => ((cfg1.win 2).blk t).view.emb j) hx hb he) j

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- The ten blocks of 10000 rows tile the 100000 rows: row r is in the block of point r / 10000, which writes back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < grid1.N; rw [N_1]; omega⟩, rfl⟩
  obtain ⟨-, -, -, -, e20, e21⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

theorem biasrelu1 (c : Dev nD) :
    o1 V c = fun i => max (x1 V c i + b1 V c (ix2 0 (i 1))) 0 := by
  -- every index is in some writing point's block, and each such point writes its block of the one function
  exact (dat1 (F := Ideal) V c).arrAt_eq_of_cover 2 (reluArr1 (x1 V c) (b1 V c))
    (fun t _ => flushed1_eq V c t) cover1

end Cert.KernelIdeal.RegionValue
end
-- ==== Proof.Region2.lean ====
/- The second feature product: after region 2 its output array holds the sum over k of h[r,k] * W2[k,j].
   Stated at any contents `V` of the core's buffers at the region's entry, so that the run can instantiate it at its own
   boundary contents. -/
import proofs.«174593_j5085241279102_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

abbrev x2 (c : Dev nD) : S100000x128.Idx → EReal := V c main_v45
abbrev w2 (c : Dev nD) : S128x128.Idx → EReal := V c main_arg4
abbrev o2 (c : Dev nD) : S100000x128.Idx → EReal := (dat2 (F := Ideal) V c).arrAt 2 cfg2.N

/-! ## The block product at an index -/

/-- On the left operand of the block product the row axis is free: it carries the output's row. -/
theorem matmul2_lhs_row (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column axis is the contracted one: it carries the summation index. -/
theorem matmul2_lhs_col (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
/-- On the right operand the row axis is the contracted one. -/
theorem matmul2_rhs_row (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
/-- Its column axis is free: it carries the output's column. -/
theorem matmul2_rhs_col (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product at row p and column q: the sum over k of xb[p,k] * wb[k,q]. The narrowing casts are the identity
    on extended reals, the cast of the left block to its own shape is the identity, and the accumulator is the zero splat, so only the sum is left; the contraction index set is
    re-indexed by its one coordinate. -/
theorem matmul2_block_apply (xb : Vec Ideal S4000x128 .f32) (wb : Vec Ideal S128x128 .f32) (p : Fin 4000) (q : Fin 128) :
    k2_pay1 (F := Ideal) xb wb (ix2 p q) = ∑ k : Fin 128, (xb (ix2 p k) : EReal) * (wb (ix2 k q) : EReal) := by
  unfold k2_pay1
  simp only [matmul, shapeCast_self]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact matmul2_lhs_row _ _
    | ⟨1, _⟩ => exact (matmul2_lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (matmul2_rhs_row _ _).trans hk
    | ⟨1, _⟩ => exact matmul2_rhs_col _ _)
  rw [el, er]
  rfl

/-! ## From the blocks to the array -/

theorem matmul2_origin : (![0, 0] : Fin 2 → Nat) = fun _ => 0 := funext fun a => by fin_cases a <;> rfl

/-- The whole-array product: at row r and column j the sum over k of x[r,k] * w[k,j]. -/
abbrev matmul2_product (x : S100000x128.Idx → EReal) (w : S128x128.Idx → EReal) : S100000x128.Idx → EReal :=
  fun i => ∑ k : Fin 128, x (ix2 (i 0) k) * w (ix2 k (i 1))

/-- The index maps over the grid: point t takes row block t of the left operand and of the output, and the whole of the
    right operand. -/
theorem matmul2_block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block product whose left block holds rows of x, at the place of output row (i 0), and whose right block holds w, is
    the whole-array product at i. -/
theorem matmul2_block_rows (xb : Vec Ideal S4000x128 .f32) (wb : Vec Ideal S128x128 .f32)
    (x : S100000x128.Idx → EReal) (w : S128x128.Idx → EReal) (j : S4000x128.Idx) (i : S100000x128.Idx)
    (hx : ∀ k : Fin 128, (xb (ix2 (j 0) k) : EReal) = x (ix2 (i 0) k))
    (hw : ∀ k : Fin 128, (wb (ix2 k (j 1)) : EReal) = w (ix2 k (i 1))) :
    k2_pay1 (F := Ideal) xb wb j = matmul2_product x w i := by
  refine (congrArg (k2_pay1 (F := Ideal) xb wb) (eq_ix2 j)).trans ((matmul2_block_apply xb wb (j 0) (j 1)).trans ?_)
  exact Finset.sum_congr rfl fun k _ => congrArg₂ (· * ·) (hx k) (hw k)

/-- What point t writes back is block t of the whole-array product of the arrays as the region finds them. -/
theorem matmul2_flushed_eq (c : Dev nD) (t : Fin cfg2.N) :
    (dat2 (F := Ideal) V c).flushed 2 t = ((cfg2.win 2).blk t).view.read (Elt Ideal) (matmul2_product (x2 V c) (w2 V c)) := by
  show (cfg2.win 2).cut (grid2.coords t) ((dat2 (F := Ideal) V c).after 2 t) = _
  rw [after2_2]
  unfold out2_2
  rw [View.canon_unit_zero matmul2_origin]
  simp only [View.ld_unit_zero (S := S4000x128) matmul2_origin, View.ld_unit_zero (S := S128x128) matmul2_origin]
  funext j
  obtain ⟨e00, e01, e10, e11, e20, e21⟩ := matmul2_block_indices t
  show k2_pay1 (F := Ideal) (iblk2 V c 0 t) (iblk2 V c 1 t) j = matmul2_product (x2 V c) (w2 V c) (((cfg2.win 2).blk t).view.emb j)
  refine matmul2_block_rows (iblk2 V c 0 t) (iblk2 V c 1 t) (x2 V c) (w2 V c) j (((cfg2.win 2).blk t).view.emb j) (fun k => ?_) (fun k => ?_)
  · show V c main_v45 (((cfg2.win 0).blk t).view.emb (ix2 (j 0) k)) = V c main_v45 (ix2 ((((cfg2.win 2).blk t).view.emb j) 0) k)
    congr 1; funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  · show V c main_arg4 (((cfg2.win 1).blk t).view.emb (ix2 k (j 1))) = V c main_arg4 (ix2 k ((((cfg2.win 2).blk t).view.emb j) 1))
    congr 1; funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output lies in point t's block exactly when each coordinate lies in the block's range on its axis. -/
theorem matmul2_mem_block (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v46).slice (win2_2.rect t)).set ↔ _
  rw [View.set_slice_whole, Rect.mem_set_unit]
  exact Iff.rfl

/-- The 25 blocks of 4000 rows cover the 100000 rows: row r lies in block r / 4000. -/
theorem matmul2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨e00, e01, e10, e11, e20, e21⟩ := matmul2_block_indices t
  refine ⟨t, flush2_2 t, ?_⟩
  rw [matmul2_mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

theorem matmul2 (c : Dev nD) :
    o2 V c = fun i => ∑ k : Fin 128, x2 V c (ix2 (i 0) k) * w2 V c (ix2 k (i 1)) := by
  exact (dat2 (F := Ideal) V c).arrAt_eq_of_cover 2 (matmul2_product (x2 V c) (w2 V c)) (fun t _ => matmul2_flushed_eq V c t) matmul2_cover

end Cert.KernelIdeal.RegionValue
end
-- ==== Proof.Region3.lean ====
/- The second bias: after region 3 its output array holds agg[r,j] + b[0,j].
   Stated at any contents `V` of the core's buffers at the region's entry, so that the run can instantiate it at its own
   boundary contents. -/
import proofs.«174593_j5085241279102_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

abbrev x3 (c : Dev nD) : S100000x128.Idx → EReal := V c main_v59
abbrev b3 (c : Dev nD) : S1x128.Idx → EReal := V c main_v60
abbrev o3 (c : Dev nD) : S100000x128.Idx → EReal := (dat3 (F := Ideal) V c).arrAt 2 cfg3.N

/-- The biased array as one function of the whole arrays: entry (r, j) is X[r, j] + B[0, j]. -/
abbrev biasArr3 (X : S100000x128.Idx → EReal) (B : S1x128.Idx → EReal) : S100000x128.Idx → EReal :=
  fun i => X i + B (ix2 0 (i 1))

/-- The offset (0, 0) is the zero offset. -/
theorem hz3 : (![0, 0] : Fin 2 → Nat) = fun _ => 0 := funext fun a => by fin_cases a <;> rfl

/-- The body's arithmetic at entry (p, q) of a block, over the extended reals: the casts to the same shape are the
    identity and the broadcast reads the bias row at column q; so the entry is x[p, q] + b[0, q]. -/
theorem pay3_apply (x : Vec Ideal S10000x128 .f32) (b : Vec Ideal S1x128 .f32) (p : Fin 10000) (q : Fin 128) :
    k3_pay1 (F := Ideal) x b (ix2 p q) = x (ix2 p q) + b (ix2 (0 : Fin 1) q) := by
  unfold k3_pay1
  show shapeCast S10000x128 x shapeCasts_S10000x128_S10000x128 (ix2 p q)
      + broadcastTo S10000x128 (shapeCast S1x128 b shapeCasts_S1x128_S1x128) broadcasts_S1x128_S10000x128 (ix2 p q) = _
  rw [shapeCast_self, shapeCast_self]
  exact congrArg (fun z => x (ix2 p q) + z) (broadcastTo_1b_ab_apply b broadcasts_S1x128_S10000x128 p q)

/-- The same for a whole block: when the block `x` is the array `X` read through a placement `e` of the block's
    indices that keeps the column, and the bias block `b` is the bias row `B`, the body's result on the block is the
    biased array read through `e`. -/
theorem pay3_blk (X : S100000x128.Idx → EReal) (B : S1x128.Idx → EReal)
    (x : Vec Ideal S10000x128 .f32) (b : Vec Ideal S1x128 .f32) (e : S10000x128.Idx → S100000x128.Idx)
    (hx : ∀ j, x j = X (e j)) (hb : ∀ k, b k = B k) (he : ∀ j, ((e j) 1).val = (j 1).val) :
    k3_pay1 (F := Ideal) x b = fun j => X (e j) + B (ix2 0 ((e j) 1)) := by
  funext j
  obtain ⟨p, q, rfl⟩ : ∃ (p : Fin 10000) (q : Fin 128), j = ix2 p q := ⟨j 0, j 1, eq_ix2 j⟩
  rw [pay3_apply, hx, hb]
  have hq : (ix2 (0 : Fin 1) q : S1x128.Idx) = ix2 0 ((e (ix2 p q)) 1) := by
    funext a
    match a with
    | ⟨0, _⟩ => rfl
    | ⟨1, _⟩ => exact Fin.ext (he (ix2 p q)).symm
  exact congrArg (fun z => X (e (ix2 p q)) + B z) hq

/-- The three index maps over the ten grid points: the input's and the output's block row is the point's number and
    their block column 0; the bias row's block is (0, 0) at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased array: the output's one store covers its whole buffer with
    the body's result on the input blocks; the input block at `t` sits in its array where the output block at `t` sits
    in its own (same block row and column: a block's coordinate is index × size + the coordinate inside the block), and
    the bias block is the whole bias row. -/
theorem flushed3_eq (c : Dev nD) (t : Fin cfg3.N) :
    (dat3 (F := Ideal) V c).flushed 2 t
      = ((cfg3.win 2).blk t).view.read (Elt Ideal) (biasArr3 (x3 V c) (b3 V c)) := by
  show (cfg3.win 2).cut (grid3.coords t) ((dat3 V c).after 2 t) = _
  rw [after3_2]
  unfold out3_2
  rw [View.canon_unit_zero hz3]
  simp only [View.ld_unit_zero (S := S10000x128) hz3, View.ld_unit_zero (S := S1x128) hz3]
  obtain ⟨e00, e01, e10, e11, e20, e21⟩ := idx3 t
  have hx : ∀ j : S10000x128.Idx, iblk3 V c 0 t j = x3 V c (((cfg3.win 2).blk t).view.emb j) := by
    intro j
    show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have hb : ∀ k : S1x128.Idx, iblk3 V c 1 t k = b3 V c k := by
    intro k
    show V c main_v60 (((cfg3.win 1).blk t).view.emb k) = V c main_v60 k
    refine congrArg (V c main_v60) (funext fun a => Fin.ext ?_)
    match a with
    | ⟨0, _⟩ => show win3_1.index t (0 : Fin 2) * 1 + 1 * (k 0).val = (k 0).val; omega
    | ⟨1, _⟩ => show win3_1.index t (1 : Fin 2) * 128 + 1 * (k 1).val = (k 1).val; omega
  have he : ∀ j : S10000x128.Idx, ((((cfg3.win 2).blk t).view.emb j) 1).val = (j 1).val := by
    intro j
    show win3_2.index t (1 : Fin 2) * 128 + 1 * (j 1).val = (j 1).val
    omega
  funext j
  show k3_pay1 (F := Ideal) (iblk3 V c 0 t) (iblk3 V c 1 t) j
      = x3 V c (((cfg3.win 2).blk t).view.emb j) + b3 V c (ix2 0 ((((cfg3.win 2).blk t).view.emb j) 1))
  exact congrFun (pay3_blk (x3 V c) (b3 V c) (iblk3 V c 0 t) (iblk3 V c 1 t)
    (fun j => ((cfg3.win 2).blk t).view.emb j) hx hb he) j

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v61).slice (win3_2.rect t)).set ↔ _
  rw [View.set_slice_whole, Rect.mem_set_unit]
  exact Iff.rfl

/-- The ten blocks of 10000 rows tile the 100000 rows: row r is in the block of point r / 10000, which writes back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by show (i 0).val / 10000 < grid3.N; rw [N_3]; omega⟩, rfl⟩
  obtain ⟨-, -, -, -, e20, e21⟩ := idx3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

theorem bias3 (c : Dev nD) :
    o3 V c = fun i => x3 V c i + b3 V c (ix2 0 (i 1)) := by
  -- every index is in some writing point's block, and each such point writes its block of the one function
  exact (dat3 (F := Ideal) V c).arrAt_eq_of_cover 2 (biasArr3 (x3 V c) (b3 V c))
    (fun t _ => flushed3_eq V c t) cover3

end Cert.KernelIdeal.RegionValue
end
-- ==== Proof.Region4.lean ====
/- The final linear layer: after region 4 its output column holds, at row r, the sum over k of h[r,k] * wf[0,k], plus bf[0,0].
   Stated at any contents `V` of the core's buffers at the region's entry, so that the run can instantiate it at its own
   boundary contents. -/
import proofs.«174593_j5085241279102_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

abbrev x4 (c : Dev nD) : S100000x128.Idx → EReal := V c main_v61
abbrev w4 (c : Dev nD) : S1x128.Idx → EReal := V c main_v62
abbrev b4 (c : Dev nD) : S1x1.Idx → EReal := V c main_v63
abbrev o4 (c : Dev nD) : S100000x1.Idx → EReal := (dat4 (F := Ideal) V c).arrAt 3 cfg4.N

/-! ## The body's arithmetic at an index -/

/-- The lane sum at row r: the sum over the 128 lanes. -/
theorem rowsum4_apply (v : S10000x128.Idx → EReal) (h : S10000x128.Reduces [1] S10000) (hφ : FKind.Formats FTy.f32)
    (hacc : (0x00000000#32 : BitVec 32) = 0x00000000#32) (r : Fin 10000) :
    multiReduction (F := Ideal) .add [1] S10000 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  funext a
  match a with
  | ⟨0, _⟩ => exact Fin.ext rfl
  | ⟨1, _⟩ => exact Fin.ext rfl

/-- A column vector made from a row-indexed vector reads, at (r, 0), the vector at r. -/
theorem column4_apply (v : S10000.Idx → EReal) (h : S10000.ShapeCasts S10000x1) (r : Fin 10000) (z : Fin 1) :
    shapeCast S10000x1 v h (ix2 r z) = v (ix1 r) := by
  refine shapeCast_apply v h (ix2 r z) (ix1 r) ?_
  rw [Shape.rowMajor_val_one, Shape.rowMajor_val_two]
  show r.val = r.val * 1 + z.val
  have hz : z.val < 1 := z.isLt
  omega

/-- The weight row spread over all rows reads, at (r, k), the weight at lane k. -/
theorem wrow4_apply (x1 : S1x128.Idx → EReal) (h : S1x128.Broadcasts S10000x128) (r : Fin 10000) (k : Fin 128) :
    broadcastTo S10000x128 x1 h (ix2 r k) = x1 (ix2 0 k) := by
  refine broadcastTo_apply x1 h (ix2 r k) (ix2 0 k) fun a => ?_
  match a with
  | ⟨0, _⟩ => rfl
  | ⟨1, _⟩ => rfl

/-- The bias spread over the column reads the bias everywhere. -/
theorem bias4_apply (x2 : S1x1.Idx → EReal) (h : S1x1.Broadcasts S10000x1) (r : Fin 10000) (z : Fin 1) :
    broadcastTo S10000x1 x2 h (ix2 r z) = x2 (ix2 0 0) := by
  refine broadcastTo_apply x2 h (ix2 r z) (ix2 0 0) fun a => ?_
  match a with
  | ⟨0, _⟩ => rfl
  | ⟨1, _⟩ => rfl

/-- The body's arithmetic at row r: the dot product of row r with the weight row, plus the bias. -/
theorem pay4_apply (x0 : S10000x128.Idx → EReal) (x1 : S1x128.Idx → EReal) (x2 : S1x1.Idx → EReal) (r : Fin 10000) (z : Fin 1) :
    k4_pay1 (F := Ideal) x0 x1 x2 (ix2 r z) = (∑ k : Fin 128, x0 (ix2 r k) * x1 (ix2 0 k)) + x2 (ix2 0 0) := by
  unfold k4_pay1
  simp only [shapeCast_self]
  refine (addf_apply _ _ (ix2 r z)).trans ?_
  refine congrArg₂ (· + ·) ?_ (bias4_apply x2 _ r z)
  refine (column4_apply _ _ r z).trans ?_
  refine (rowsum4_apply _ _ _ _ r).trans ?_
  refine Finset.sum_congr rfl fun k _ => ?_
  refine (mulf_apply _ _ (ix2 r k)).trans ?_
  exact congrArg (x0 (ix2 r k) * ·) (wrow4_apply x1 _ r k)

/-! ## From the blocks to the array -/

theorem zero_offsets4 : (![0, 0] : Fin 2 → Nat) = fun _ => 0 := funext fun a => by fin_cases a <;> rfl

/-- What the output column ends holding: at row r the dot product of row r of the features with the weight row, plus the bias. -/
abbrev lin4 (c : Dev nD) : S100000x1.Idx → EReal :=
  fun i => (∑ k : Fin 128, x4 V c (ix2 (i 0) k) * w4 V c (ix2 0 k)) + b4 V c (ix2 0 0)

/-- The input blocks at point t, named at their literal types. -/
abbrev xblk4 (c : Dev nD) (t : Fin cfg4.N) : S10000x128.Idx → EReal := iblk4 (F := Ideal) V c 0 t
abbrev wblk4 (c : Dev nD) (t : Fin cfg4.N) : S1x128.Idx → EReal := iblk4 (F := Ideal) V c 1 t
abbrev bblk4 (c : Dev nD) (t : Fin cfg4.N) : S1x1.Idx → EReal := iblk4 (F := Ideal) V c 2 t

/-- The index maps over the grid: the feature block and the output block of point t are block row t; the weight
    row and the bias are always block (0, 0). -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The feature block of point t is rows 10000 t … 10000 t + 9999 of the features. -/
theorem xblk4_apply (c : Dev nD) (t : Fin cfg4.N) (y : S10000x128.Idx) (i : S100000x128.Idx)
    (h0 : (i 0).val = t.val * 10000 + (y 0).val) (h1 : (i 1).val = (y 1).val) :
    xblk4 V c t y = x4 V c i := by
  obtain ⟨e0, e1, -⟩ := block_indices4 t
  show V c main_v61 (((cfg4.win 0).blk t).view.emb y) = V c main_v61 i
  refine congrArg (V c main_v61) ?_
  funext a; apply Fin.ext
  match a with
  | ⟨0, _⟩ => show win4_0.index t (0 : Fin 2) * 10000 + 1 * (y 0).val = (i 0).val; omega
  | ⟨1, _⟩ => show win4_0.index t (1 : Fin 2) * 128 + 1 * (y 1).val = (i 1).val; omega

/-- The weight block is the whole weight row at every point. -/
theorem wblk4_apply (c : Dev nD) (t : Fin cfg4.N) (y : S1x128.Idx) : wblk4 V c t y = w4 V c y := by
  obtain ⟨-, -, e0, e1, -⟩ := block_indices4 t
  show V c main_v62 (((cfg4.win 1).blk t).view.emb y) = V c main_v62 y
  refine congrArg (V c main_v62) ?_
  funext a; apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- The bias block is the whole bias at every point. -/
theorem bblk4_apply (c : Dev nD) (t : Fin cfg4.N) (y : S1x1.Idx) : bblk4 V c t y = b4 V c y := by
  obtain ⟨-, -, -, -, e0, e1, -⟩ := block_indices4 t
  show V c main_v63 (((cfg4.win 2).blk t).view.emb y) = V c main_v63 y
  refine congrArg (V c main_v63) ?_
  funext a; apply Fin.ext
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- The body's result at row y of point t's block is the linear layer at row 10000 t + y of the array. -/
theorem point4_eq (c : Dev nD) (t : Fin cfg4.N) (y : S10000x1.Idx) (i : S100000x1.Idx)
    (h0 : (i 0).val = t.val * 10000 + (y 0).val) :
    k4_pay1 (F := Ideal) (xblk4 V c t) (wblk4 V c t) (bblk4 V c t) y = lin4 V c i := by
  refine (congrArg (k4_pay1 (F := Ideal) (xblk4 V c t) (wblk4 V c t) (bblk4 V c t)) (eq_ix2 y)).trans ?_
  refine (pay4_apply (xblk4 V c t) (wblk4 V c t) (bblk4 V c t) (y 0) (y 1)).trans ?_
  refine congrArg₂ (· + ·) (Finset.sum_congr rfl fun k _ => congrArg₂ (· * ·) ?_ ?_) ?_
  · exact xblk4_apply V c t (ix2 (y 0) k) (ix2 (i 0) k) h0 rfl
  · exact wblk4_apply V c t (ix2 0 k)
  · exact bblk4_apply V c t (ix2 0 0)

/-- What point t writes back is block t of the linear layer of the arrays as the region finds them. -/
theorem flushed4_eq (c : Dev nD) (t : Fin cfg4.N) :
    (dat4 (F := Ideal) V c).flushed 3 t = ((cfg4.win 3).blk t).view.read (Elt Ideal) (lin4 V c) := by
  obtain ⟨-, -, -, -, -, -, e0, e1⟩ := block_indices4 t
  show (cfg4.win 3).cut (grid4.coords t) ((dat4 (F := Ideal) V c).after 3 t) = _
  rw [after4_3]
  unfold out4_3
  rw [View.canon_unit_zero zero_offsets4]
  simp only [View.ld_unit_zero (S := S10000x128) zero_offsets4, View.ld_unit_zero (S := S1x128) zero_offsets4,
    View.ld_unit_zero (S := S1x1) zero_offsets4]
  funext j
  show k4_pay1 (F := Ideal) (xblk4 V c t) (wblk4 V c t) (bblk4 V c t) j = lin4 V c (((cfg4.win 3).blk t).view.emb j)
  refine point4_eq V c t j (((cfg4.win 3).blk t).view.emb j) ?_
  show win4_3.index t (0 : Fin 2) * 10000 + 1 * (j 0).val = t.val * 10000 + (j 0).val
  omega

/-- An index of the output array is in point t's block iff each coordinate is in the block's range on its axis. -/
theorem mem_blk4 (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v64).slice (win4_3.rect t)).set ↔ _
  rw [View.set_slice_whole, Rect.mem_set_unit]
  exact Iff.rfl

/-- Every row of the output array is in some point's block: row r in the block of point r / 10000. -/
theorem cover4 (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 10 := N_4
  let t : Fin cfg4.N := ⟨(i 0).val / 10000, by rw [hN]; omega⟩
  have ht : t.val = (i 0).val / 10000 := rfl
  obtain ⟨-, -, -, -, -, -, e0, e1⟩ := block_indices4 t
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 1 ≤ (i 1).val ∧ (i 1).val < win4_3.index t (1 : Fin 2) * 1 + 1; omega

theorem final4 (c : Dev nD) :
    o4 V c = fun i => (∑ k : Fin 128, x4 V c (ix2 (i 0) k) * w4 V c (ix2 0 k)) + b4 V c (ix2 0 0) :=
  (dat4 (F := Ideal) V c).arrAt_eq_of_cover 3 (lin4 V c) (fun t _ => flushed4_eq V c t) cover4

end Cert.KernelIdeal.RegionValue
end
-- ==== Proof.Chain.lean ====
/- The kernel's result buffer, boundary by boundary through @main, is the reference's result stage of the argument arrays.
   Each region leaves its output array at one whole-array function of its input arrays (a product of matrices, a bias row
   added under the rectifier, a bias row added, a lane sum of products with the weight row plus the bias), which is the
   reference's stage read at an index; each host stretch is the reference's own operations. The chain threads them: the
   edge lists and the edge norm computed once before the first region are carried unchanged through every later boundary,
   as are the argument arrays a later stretch or region still reads. -/
import proofs.«174593_j5085241279102_1_alg».proof.Proof.Gen.KernelIdeal.Frame
import proofs.«174593_j5085241279102_1_alg».proof.Proof.RefRead
import proofs.«174593_j5085241279102_1_alg».proof.Proof.RefIndex
import proofs.«174593_j5085241279102_1_alg».proof.Proof.HostStretch
import proofs.«174593_j5085241279102_1_alg».proof.Proof.Region0
import proofs.«174593_j5085241279102_1_alg».proof.Proof.Region1
import proofs.«174593_j5085241279102_1_alg».proof.Proof.Region2
import proofs.«174593_j5085241279102_1_alg».proof.Proof.Region3
import proofs.«174593_j5085241279102_1_alg».proof.Proof.Region4
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Idealize.ShloMosaic.ValueIdx
open Cert.KernelIdeal Cert.KernelIdeal.Gen Cert.KernelIdeal.RegionValue

variable (m : (ℓ : Loc nD τ sig) → Buf (Elt Ideal) ℓ) (ρ : Dev nD → PrngReg) (c : Dev nD)

/-- The argument arrays as launched. -/
abbrev a0 : S100000x256.Idx → EReal := m ((c : Thread nD τ).loc main_arg0)
abbrev a1 : (⟨S2x1600000, .i32⟩ : BufTy).Contents (Elt Ideal) := m ((c : Thread nD τ).loc main_arg1)
abbrev a2 : S256x128.Idx → EReal := m ((c : Thread nD τ).loc main_arg2)
abbrev a3 : S128.Idx → EReal := m ((c : Thread nD τ).loc main_arg3)
abbrev a4 : S128x128.Idx → EReal := m ((c : Thread nD τ).loc main_arg4)
abbrev a5 : S128.Idx → EReal := m ((c : Thread nD τ).loc main_arg5)
abbrev a6 : S128x1.Idx → EReal := m ((c : Thread nD τ).loc main_arg6)
abbrev a7 : S1.Idx → EReal := m ((c : Thread nD τ).loc main_arg7)

/-! ## At the first region's entry -/

theorem e3_arg0 : W3 m ρ c (Proc.devRef .tc main_arg0) = a0 m c := by after_results_simp <;> rfl
theorem e3_arg1 : W3 m ρ c (Proc.devRef .tc main_arg1) = a1 m c := by after_results_simp <;> rfl
theorem e3_arg2 : W3 m ρ c (Proc.devRef .tc main_arg2) = a2 m c := by after_results_simp <;> rfl
theorem e3_arg3 : W3 m ρ c (Proc.devRef .tc main_arg3) = a3 m c := by after_results_simp <;> rfl
theorem e3_arg4 : W3 m ρ c (Proc.devRef .tc main_arg4) = a4 m c := by after_results_simp <;> rfl
theorem e3_arg5 : W3 m ρ c (Proc.devRef .tc main_arg5) = a5 m c := by after_results_simp <;> rfl
theorem e3_arg6 : W3 m ρ c (Proc.devRef .tc main_arg6) = a6 m c := by after_results_simp <;> rfl
theorem e3_arg7 : W3 m ρ c (Proc.devRef .tc main_arg7) = a7 m c := by after_results_simp <;> rfl

theorem e3_v3 : W3 m ρ c (Proc.devRef .tc main_v3) = Cert.ReferenceIdeal.ReadP.val_main_v3 (F := Ideal) (a1 m c) :=
  HostStretch.pre_v3 (W0 m ρ c)
theorem e3_v6 : W3 m ρ c (Proc.devRef .tc main_v6) = Cert.ReferenceIdeal.ReadP.val_main_v6 (F := Ideal) (a1 m c) :=
  HostStretch.pre_v6 (W0 m ρ c)
theorem e3_v29 : W3 m ρ c (Proc.devRef .tc main_v29) = Cert.ReferenceIdeal.ReadP.val_main_v29 (F := Ideal) (a1 m c) :=
  HostStretch.pre_v29 (W0 m ρ c)

/-! ## After the first feature product -/

theorem e4_v30 : W4 m ρ c (Proc.devRef .tc main_v30) = Cert.ReferenceIdeal.ReadP.val_main_v30 (F := Ideal) (a0 m c) (a2 m c) := by
  have hx : x0 (V3 m ρ) c = a0 m c := e3_arg0 m ρ c
  have hw : w0 (V3 m ρ) c = a2 m c := e3_arg2 m ρ c
  refine (W4_arr m ρ c 2).trans ((matmul0 (V3 m ρ) c).trans ?_)
  rw [hx, hw, Cert.ReferenceIdeal.RefIndex.product30]

theorem e4_v3 : W4 m ρ c (Proc.devRef .tc main_v3) = Cert.ReferenceIdeal.ReadP.val_main_v3 (F := Ideal) (a1 m c) :=
  (W4_of_ne m ρ c main_v3 (by decide)).trans (e3_v3 m ρ c)
theorem e4_v6 : W4 m ρ c (Proc.devRef .tc main_v6) = Cert.ReferenceIdeal.ReadP.val_main_v6 (F := Ideal) (a1 m c) :=
  (W4_of_ne m ρ c main_v6 (by decide)).trans (e3_v6 m ρ c)
theorem e4_v29 : W4 m ρ c (Proc.devRef .tc main_v29) = Cert.ReferenceIdeal.ReadP.val_main_v29 (F := Ideal) (a1 m c) :=
  (W4_of_ne m ρ c main_v29 (by decide)).trans (e3_v29 m ρ c)
theorem e4_arg3 : W4 m ρ c (Proc.devRef .tc main_arg3) = a3 m c :=
  (W4_of_ne m ρ c main_arg3 (by decide)).trans (e3_arg3 m ρ c)
theorem e4_arg4 : W4 m ρ c (Proc.devRef .tc main_arg4) = a4 m c :=
  (W4_of_ne m ρ c main_arg4 (by decide)).trans (e3_arg4 m ρ c)
theorem e4_arg5 : W4 m ρ c (Proc.devRef .tc main_arg5) = a5 m c :=
  (W4_of_ne m ρ c main_arg5 (by decide)).trans (e3_arg5 m ρ c)
theorem e4_arg6 : W4 m ρ c (Proc.devRef .tc main_arg6) = a6 m c :=
  (W4_of_ne m ρ c main_arg6 (by decide)).trans (e3_arg6 m ρ c)
theorem e4_arg7 : W4 m ρ c (Proc.devRef .tc main_arg7) = a7 m c :=
  (W4_of_ne m ρ c main_arg7 (by decide)).trans (e3_arg7 m ρ c)

/-! ## After the first aggregation -/

theorem e5_v43 : W5 m ρ c (Proc.devRef .tc main_v43) = Cert.ReferenceIdeal.ReadP.val_main_v43 (F := Ideal) (a0 m c) (a1 m c) (a2 m c) :=
  HostStretch.mid1_v43 (W4 m ρ c) (a0 m c) (a1 m c) (a2 m c) (e4_v3 m ρ c) (e4_v6 m ρ c) (e4_v29 m ρ c) (e4_v30 m ρ c)
theorem e5_v44 (j : Fin 128) : (W5 m ρ c (Proc.devRef .tc main_v44) : S1x128.Idx → EReal) (ix2 0 j) = a3 m c (ix1 j) :=
  (HostStretch.mid1_v44 (W4 m ρ c) j).trans (congrFun (e4_arg3 m ρ c) (ix1 j))
theorem e5_v3 : W5 m ρ c (Proc.devRef .tc main_v3) = Cert.ReferenceIdeal.ReadP.val_main_v3 (F := Ideal) (a1 m c) :=
  (by after_results_simp <;> rfl : W5 m ρ c (Proc.devRef .tc main_v3) = W4 m ρ c (Proc.devRef .tc main_v3)).trans (e4_v3 m ρ c)
theorem e5_v6 : W5 m ρ c (Proc.devRef .tc main_v6) = Cert.ReferenceIdeal.ReadP.val_main_v6 (F := Ideal) (a1 m c) :=
  (by after_results_simp <;> rfl : W5 m ρ c (Proc.devRef .tc main_v6) = W4 m ρ c (Proc.devRef .tc main_v6)).trans (e4_v6 m ρ c)
theorem e5_v29 : W5 m ρ c (Proc.devRef .tc main_v29) = Cert.ReferenceIdeal.ReadP.val_main_v29 (F := Ideal) (a1 m c) :=
  (by after_results_simp <;> rfl : W5 m ρ c (Proc.devRef .tc main_v29) = W4 m ρ c (Proc.devRef .tc main_v29)).trans (e4_v29 m ρ c)
theorem e5_arg4 : W5 m ρ c (Proc.devRef .tc main_arg4) = a4 m c :=
  (by after_results_simp <;> rfl : W5 m ρ c (Proc.devRef .tc main_arg4) = W4 m ρ c (Proc.devRef .tc main_arg4)).trans (e4_arg4 m ρ c)
theorem e5_arg5 : W5 m ρ c (Proc.devRef .tc main_arg5) = a5 m c :=
  (by after_results_simp <;> rfl : W5 m ρ c (Proc.devRef .tc main_arg5) = W4 m ρ c (Proc.devRef .tc main_arg5)).trans (e4_arg5 m ρ c)
theorem e5_arg6 : W5 m ρ c (Proc.devRef .tc main_arg6) = a6 m c :=
  (by after_results_simp <;> rfl : W5 m ρ c (Proc.devRef .tc main_arg6) = W4 m ρ c (Proc.devRef .tc main_arg6)).trans (e4_arg6 m ρ c)
theorem e5_arg7 : W5 m ρ c (Proc.devRef .tc main_arg7) = a7 m c :=
  (by after_results_simp <;> rfl : W5 m ρ c (Proc.devRef .tc main_arg7) = W4 m ρ c (Proc.devRef .tc main_arg7)).trans (e4_arg7 m ρ c)

/-! ## After the first bias and rectifier -/

theorem e6_v45 : W6 m ρ c (Proc.devRef .tc main_v45)
    = Cert.ReferenceIdeal.ReadP.val_main_v47 (F := Ideal) (a0 m c) (a1 m c) (a2 m c) (a3 m c) := by
  have hx : x1 (V5 m ρ) c = Cert.ReferenceIdeal.ReadP.val_main_v43 (F := Ideal) (a0 m c) (a1 m c) (a2 m c) := e5_v43 m ρ c
  have hb : ∀ j : Fin 128, b1 (V5 m ρ) c (ix2 0 j) = a3 m c (ix1 j) := e5_v44 m ρ c
  refine (W6_arr m ρ c 2).trans ((biasrelu1 (V5 m ρ) c).trans ?_)
  rw [hx, Cert.ReferenceIdeal.RefIndex.rectified47]
  funext i
  congr 2
  exact hb (i 1)

theorem e6_v3 : W6 m ρ c (Proc.devRef .tc main_v3) = Cert.ReferenceIdeal.ReadP.val_main_v3 (F := Ideal) (a1 m c) :=
  (W6_of_ne m ρ c main_v3 (by decide)).trans (e5_v3 m ρ c)
theorem e6_v6 : W6 m ρ c (Proc.devRef .tc main_v6) = Cert.ReferenceIdeal.ReadP.val_main_v6 (F := Ideal) (a1 m c) :=
  (W6_of_ne m ρ c main_v6 (by decide)).trans (e5_v6 m ρ c)
theorem e6_v29 : W6 m ρ c (Proc.devRef .tc main_v29) = Cert.ReferenceIdeal.ReadP.val_main_v29 (F := Ideal) (a1 m c) :=
  (W6_of_ne m ρ c main_v29 (by decide)).trans (e5_v29 m ρ c)
theorem e6_arg4 : W6 m ρ c (Proc.devRef .tc main_arg4) = a4 m c :=
  (W6_of_ne m ρ c main_arg4 (by decide)).trans (e5_arg4 m ρ c)
theorem e6_arg5 : W6 m ρ c (Proc.devRef .tc main_arg5) = a5 m c :=
  (W6_of_ne m ρ c main_arg5 (by decide)).trans (e5_arg5 m ρ c)
theorem e6_arg6 : W6 m ρ c (Proc.devRef .tc main_arg6) = a6 m c :=
  (W6_of_ne m ρ c main_arg6 (by decide)).trans (e5_arg6 m ρ c)
theorem e6_arg7 : W6 m ρ c (Proc.devRef .tc main_arg7) = a7 m c :=
  (W6_of_ne m ρ c main_arg7 (by decide)).trans (e5_arg7 m ρ c)

/-! ## After the second feature product -/

theorem e7_v46 : W7 m ρ c (Proc.devRef .tc main_v46)
    = Cert.ReferenceIdeal.ReadP.val_main_v48 (F := Ideal) (a0 m c) (a1 m c) (a2 m c) (a3 m c) (a4 m c) := by
  have hx : x2 (V6 m ρ) c = Cert.ReferenceIdeal.ReadP.val_main_v47 (F := Ideal) (a0 m c) (a1 m c) (a2 m c) (a3 m c) := e6_v45 m ρ c
  have hw : w2 (V6 m ρ) c = a4 m c := e6_arg4 m ρ c
  refine (W7_arr m ρ c 2).trans ((matmul2 (V6 m ρ) c).trans ?_)
  rw [hx, hw, Cert.ReferenceIdeal.RefIndex.product48]

theorem e7_v3 : W7 m ρ c (Proc.devRef .tc main_v3) = Cert.ReferenceIdeal.ReadP.val_main_v3 (F := Ideal) (a1 m c) :=
  (W7_of_ne m ρ c main_v3 (by decide)).trans (e6_v3 m ρ c)
theorem e7_v6 : W7 m ρ c (Proc.devRef .tc main_v6) = Cert.ReferenceIdeal.ReadP.val_main_v6 (F := Ideal) (a1 m c) :=
  (W7_of_ne m ρ c main_v6 (by decide)).trans (e6_v6 m ρ c)
theorem e7_v29 : W7 m ρ c (Proc.devRef .tc main_v29) = Cert.ReferenceIdeal.ReadP.val_main_v29 (F := Ideal) (a1 m c) :=
  (W7_of_ne m ρ c main_v29 (by decide)).trans (e6_v29 m ρ c)
theorem e7_arg5 : W7 m ρ c (Proc.devRef .tc main_arg5) = a5 m c :=
  (W7_of_ne m ρ c main_arg5 (by decide)).trans (e6_arg5 m ρ c)
theorem e7_arg6 : W7 m ρ c (Proc.devRef .tc main_arg6) = a6 m c :=
  (W7_of_ne m ρ c main_arg6 (by decide)).trans (e6_arg6 m ρ c)
theorem e7_arg7 : W7 m ρ c (Proc.devRef .tc main_arg7) = a7 m c :=
  (W7_of_ne m ρ c main_arg7 (by decide)).trans (e6_arg7 m ρ c)

/-! ## After the second aggregation -/

theorem e8_v59 : W8 m ρ c (Proc.devRef .tc main_v59)
    = Cert.ReferenceIdeal.ReadP.val_main_v61 (F := Ideal) (a0 m c) (a1 m c) (a2 m c) (a3 m c) (a4 m c) :=
  HostStretch.mid3_v59 (W7 m ρ c) (a0 m c) (a1 m c) (a2 m c) (a3 m c) (a4 m c) (e7_v3 m ρ c) (e7_v6 m ρ c) (e7_v29 m ρ c) (e7_v46 m ρ c)
theorem e8_v60 (j : Fin 128) : (W8 m ρ c (Proc.devRef .tc main_v60) : S1x128.Idx → EReal) (ix2 0 j) = a5 m c (ix1 j) :=
  (HostStretch.mid3_v60 (W7 m ρ c) j).trans (congrFun (e7_arg5 m ρ c) (ix1 j))
theorem e8_arg6 : W8 m ρ c (Proc.devRef .tc main_arg6) = a6 m c :=
  (by after_results_simp <;> rfl : W8 m ρ c (Proc.devRef .tc main_arg6) = W7 m ρ c (Proc.devRef .tc main_arg6)).trans (e7_arg6 m ρ c)
theorem e8_arg7 : W8 m ρ c (Proc.devRef .tc main_arg7) = a7 m c :=
  (by after_results_simp <;> rfl : W8 m ρ c (Proc.devRef .tc main_arg7) = W7 m ρ c (Proc.devRef .tc main_arg7)).trans (e7_arg7 m ρ c)

/-! ## After the second bias -/

theorem e9_v61 : W9 m ρ c (Proc.devRef .tc main_v61)
    = Cert.ReferenceIdeal.ReadP.val_main_v64 (F := Ideal) (a0 m c) (a1 m c) (a2 m c) (a3 m c) (a4 m c) (a5 m c) := by
  have hx : x3 (V8 m ρ) c = Cert.ReferenceIdeal.ReadP.val_main_v61 (F := Ideal) (a0 m c) (a1 m c) (a2 m c) (a3 m c) (a4 m c) := e8_v59 m ρ c
  have hb : ∀ j : Fin 128, b3 (V8 m ρ) c (ix2 0 j) = a5 m c (ix1 j) := e8_v60 m ρ c
  refine (W9_arr m ρ c 2).trans ((bias3 (V8 m ρ) c).trans ?_)
  rw [hx, Cert.ReferenceIdeal.RefIndex.biased64]
  funext i
  congr 2
  exact hb (i 1)
theorem e9_arg6 : W9 m ρ c (Proc.devRef .tc main_arg6) = a6 m c :=
  (W9_of_ne m ρ c main_arg6 (by decide)).trans (e8_arg6 m ρ c)
theorem e9_arg7 : W9 m ρ c (Proc.devRef .tc main_arg7) = a7 m c :=
  (W9_of_ne m ρ c main_arg7 (by decide)).trans (e8_arg7 m ρ c)

/-! ## At the closing region's entry -/

theorem e10_v61 : W10 m ρ c (Proc.devRef .tc main_v61)
    = Cert.ReferenceIdeal.ReadP.val_main_v64 (F := Ideal) (a0 m c) (a1 m c) (a2 m c) (a3 m c) (a4 m c) (a5 m c) :=
  (by after_results_simp <;> rfl : W10 m ρ c (Proc.devRef .tc main_v61) = W9 m ρ c (Proc.devRef .tc main_v61)).trans (e9_v61 m ρ c)
theorem e10_v62 (k : Fin 128) : (W10 m ρ c (Proc.devRef .tc main_v62) : S1x128.Idx → EReal) (ix2 0 k) = a6 m c (ix2 k 0) :=
  (HostStretch.mid4_v62 (W9 m ρ c) k).trans (congrFun (e9_arg6 m ρ c) (ix2 k 0))
theorem e10_v63 : (W10 m ρ c (Proc.devRef .tc main_v63) : S1x1.Idx → EReal) (ix2 0 0) = a7 m c (ix1 0) :=
  (HostStretch.mid4_v63 (W9 m ρ c)).trans (congrFun (e9_arg7 m ρ c) (ix1 0))

/-! ## After the closing region, and the result -/

theorem e11_v64 : W11 m ρ c (Proc.devRef .tc main_v64)
    = Cert.ReferenceIdeal.ReadP.val_main_v68 (F := Ideal) (a0 m c) (a1 m c) (a2 m c) (a3 m c) (a4 m c) (a5 m c) (a6 m c) (a7 m c) := by
  have hx : x4 (V10 m ρ) c = Cert.ReferenceIdeal.ReadP.val_main_v64 (F := Ideal) (a0 m c) (a1 m c) (a2 m c) (a3 m c) (a4 m c) (a5 m c) := e10_v61 m ρ c
  have hw : ∀ k : Fin 128, w4 (V10 m ρ) c (ix2 0 k) = a6 m c (ix2 k 0) := e10_v62 m ρ c
  have hb : b4 (V10 m ρ) c (ix2 0 0) = a7 m c (ix1 0) := e10_v63 m ρ c
  refine (W11_arr m ρ c 3).trans ((final4 (V10 m ρ) c).trans ?_)
  rw [hx, hb, Cert.ReferenceIdeal.RefIndex.linear68]
  funext i
  simp only [hw]

/-- The kernel's result buffer holds the reference's result stage of the argument arrays. -/
theorem result_eq : W12 m ρ c (Proc.devRef .tc main_v65)
    = Cert.ReferenceIdeal.ReadP.val_main_v69 (F := Ideal) (a0 m c) (a1 m c) (a2 m c) (a3 m c) (a4 m c) (a5 m c) (a6 m c) (a7 m c) := by
  rw [Cert.ReferenceIdeal.RefIndex.flat69]
  funext i
  refine (HostStretch.post_v65 (W11 m ρ c) i).trans ?_
  rw [e11_v64]

end Cert.KernelIdeal.Chain

end
-- ==== Proof.lean ====
/- The five claims of this certificate, assembled.
   The kernel is a two-layer graph convolution: x·W1 aggregated over the edges (self loops added, each message scaled by the
   product of the inverse square-root degrees of its two ends), plus b1, rectified; that times W2, aggregated again, plus b2;
   then a linear layer to one column. The kernel computes the three products and the two bias steps in five regions tiled
   over the node axis, and the normalisation, the gathers and the scatter-adds on the host, exactly as the reference does.
   At the exact instance a product accumulated from a zero accumulator is the contraction's sum, a change of float format
   is the identity, and a lane sum of products with a weight row is the contraction with the weight column; so each region's
   output array is the reference's stage of the same operands, index by index, and no law that needs finiteness is used.
   The frames of the two kernel programs are the generated ones; the reference's frame is its run with the result dropped. -/
import proofs.«174593_j5085241279102_1_alg».proof.Defs
import proofs.«174593_j5085241279102_1_alg».proof.Proof.Gen.Kernel
import proofs.«174593_j5085241279102_1_alg».proof.Proof.Gen.Kernel.Skeleton
import proofs.«174593_j5085241279102_1_alg».proof.Proof.Gen.Kernel.Launch
import proofs.«174593_j5085241279102_1_alg».proof.Proof.Gen.Kernel.Points
import proofs.«174593_j5085241279102_1_alg».proof.Proof.Gen.Kernel.Frame
import proofs.«174593_j5085241279102_1_alg».proof.Proof.Gen.KernelIdeal
import proofs.«174593_j5085241279102_1_alg».proof.Proof.Gen.KernelIdeal.Skeleton
import proofs.«174593_j5085241279102_1_alg».proof.Proof.Gen.KernelIdeal.Launch
import proofs.«174593_j5085241279102_1_alg».proof.Proof.Gen.KernelIdeal.Points
import proofs.«174593_j5085241279102_1_alg».proof.Proof.Gen.KernelIdeal.Frame
import proofs.«174593_j5085241279102_1_alg».proof.Proof.Gen.ReferenceIdeal
import proofs.«174593_j5085241279102_1_alg».proof.Proof.Gen.Pre_finite_inputs
import proofs.«174593_j5085241279102_1_alg».proof.Proof.KRun
import proofs.«174593_j5085241279102_1_alg».proof.Proof.RefRun
import proofs.«174593_j5085241279102_1_alg».proof.Proof.RefRead
import proofs.«174593_j5085241279102_1_alg».proof.Proof.Chain
import Idealize.ShloMosaic.Adequacy
import Idealize.ShloMosaic.Init

noncomputable section

namespace Cert.Proof

open Idealize.ShloMosaic Idealize.SL.Sem Cert.Kernel

/-- The word-level kernel runs, and its arguments end as launched: the generated frame. -/
theorem frame_kernel : Cert.frame_Kernel := fun m ρ _ => Cert.Kernel.Gen.frame m ρ

/-- The same of the kernel read at the exact instance. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the reference's result stage of the (agreeing) argument arrays. -/
theorem algebraic : Cert.algebraic_KernelIdeal_ReferenceIdeal := by
  intro m ρ m' ρ' _ hagree
  refine ⟨fun c => Cert.ReferenceIdeal.ReadP.val_main_v69 (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c)
      (Cert.KernelIdeal.Chain.a6 m c) (Cert.KernelIdeal.Chain.a7 m c), ?_, ?_⟩
  · exact (θ_run Cert.KernelIdeal.defs _ _).mono
      (fun _ h c => ⟨(h c).1.trans (Cert.KernelIdeal.Chain.result_eq m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.ValueP.run (F := Ideal) m' ρ')
    have e := hagree c
    rw [Cert.ReferenceIdeal.ReadP.val_main_v69_eq, e.1, e.2.1, e.2.2.1, e.2.2.2.1, e.2.2.2.2.1, e.2.2.2.2.2.1,
      e.2.2.2.2.2.2.1, e.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
